-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S4096x2048 .f32) (main_arg5 : FVec F S2048x2048 .f32) (main_arg6 : FVec F S2048x2048 .f32) (main_arg7 : FVec F S2048x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S2048x2048 .f32) (main_arg6 : FVec F S2048x2048 .f32) (main_arg7 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048x2048 : Shape := ⟨2, ![2048, 2048]⟩
abbrev S256x2048 : Shape := ⟨2, ![256, 2048]⟩
abbrev S256x256 : Shape := ⟨2, ![256, 256]⟩

abbrev nBuf : Space → Nat
  | .hbm => 15
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let c0_13 : Index := 0#32
  let arg1 : BitVec 32 := BitVec.ofNat 32 (i 1).val
  let c256_i32 : BitVec 32 := 256#32
  let v0 : BitVec 32 := Scalar.muli arg1 c256_i32
  let v1 : BitVec 32 := v0
  let v17 : Index := Scalar.indexCast v1
  ![0, v17.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S256x256 : 0 < S256x256.numel
  inb_S256x256_S256x256_0_0 : ∀ a, (![0, 0] : Fin 2 → Nat) a + S256x256.size a ≤ S256x256.size a
  natLt_1_32 : 1 < 32
  dot_S256x2048_S256x2048_S256x256_1_1_0_0_n_n_wf : DotDims.WF S256x2048 S256x2048 S256x256 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x2048.size a
  hwx0_3 : ∀ i : grid0.Coords, EltTy.bits .f32 = 32 ∨ (Rect.block (s := S4096x2048) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x2048.size a
  hwx0_4 : ∀ i : grid0.Coords, EltTy.bits .f32 = 32 ∨ (Rect.block (s := S4096x2048) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S4096x2048.size a
  hwx0_8 : ∀ i : grid0.Coords, EltTy.bits .f32 = 32 ∨ (Rect.block (s := S4096x2048) S256x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S4096x2048.size a
  hwx0_9 : ∀ i : grid0.Coords, EltTy.bits .f32 = 32 ∨ (Rect.block (s := S4096x2048) S256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S4096x2048.size a
  hwx0_10 : ∀ i : grid0.Coords, EltTy.bits .f32 = 32 ∨ (Rect.block (s := S4096x2048) S256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S4096x2048.size a
  hwx0_11 : ∀ i : grid0.Coords, EltTy.bits .f32 = 32 ∨ (Rect.block (s := S4096x2048) S256x256.size (cc0_transform_11 i) (hinb0_11 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S256x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_2) S256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_3) S256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S2048x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .i1⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S2048x2048, .f32⟩
  | .hbm, ⟨39, _⟩ => ⟨S4096x2048, .f32⟩
  | .hbm, ⟨40, _⟩ => ⟨S4096x2048, .f32⟩
  | .hbm, ⟨41, _⟩ => ⟨S2048x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .i1⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  transposes_S2048x2048_S2048x2048_1_0 : S2048x2048.Transposes [1, 0] S2048x2048
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LibDotRows.lean ====
/-
  A matrix product of rows by rows at the ideal instance, read at an entry.

  For two rank-2 operands of shapes [M, K] and [N, K] whose dimension numbers contract the second axis of both
  (the product of the left operand with the transpose of the right), the product into a zero accumulator is, at
  row `p` and column `j`, the plain sum over `a : Fin K` of `l (p, a) * r (j, a)` on the extended reals: row `p`
  of the left operand against row `j` of the right. The dimension numbers enter only through four coordinate
  facts (which coordinate of each operand is the output's and which is the contracted one); a caller proves
  those four for its own record and gets the sum. No property of the entries is used, so the statement holds at
  the infinities too.
-/
import Idealize.ShloMosaic.Lib.ValueIdx
import Idealize.ShloMosaic.PureOps.Ideal.Laws

noncomputable section

namespace Cert.Lib.DotRows

open Idealize.ShloMosaic Idealize.ShloMosaic.ValueIdx

/-- Row `p` of `l` against row `j` of `r`: entry `(p, j)` of `l · rᵀ`. -/
def rowDot {M N K : Nat} (l : (⟨2, ![M, K]⟩ : Shape).Idx → EReal) (r : (⟨2, ![N, K]⟩ : Shape).Idx → EReal)
    (p : Fin M) (j : Fin N) : EReal :=
  ∑ a : Fin K, l (ix2 p a) * r (ix2 j a)

/-- The contraction sum of a rows-by-rows product, re-indexed from the record's one-axis contraction index to
    `Fin K`: both operands are read along a row. -/
theorem contraction_rows {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = rowDot l r p j := by
  unfold rowDot
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's rows-by-rows matrix product into the zero accumulator, at the ideal instance, read at `(p, j)`. -/
theorem matmul_zero_rows {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j) = rowDot l r p j := by
  show FloatOps.matmul D prec l r (constant (F := Ideal) ⟨2, ![M, N]⟩ .f32 0x00000000#32) (ix2 p j) = _
  rw [Ideal.matmul_constant_zero_apply]
  exact contraction_rows D hr hs hl0 hl1 hr0 hr1 l r p j

end Cert.Lib.DotRows

end
-- ==== Proof.Spec.lean ====
/-
  One time step of a layer of leaky integrate-and-fire neurons with compartment coupling and a refractory
  counter, written entry by entry on the extended reals.

  For one neuron of one batch row, with membrane potential `v`, synaptic current `cur`, refractory counter `rho`,
  and the three matrix products already summed (`cpl`: the potentials of the row against the neuron's coupling
  weights; `pin`: the inputs of the row against its input weights; `prec`: the previous spikes of the row against
  its recurrent weights):

    potential   = v + c₁ · ((0 − v) + cur) + cpl                 the leak pulls towards 0, the current drives
    fired       = [potential − 1 > 0]                            the threshold is 1
    afterReset  = (1 − fired) · potential + fired · 0            a spike resets the potential to 0
    held        = [rho > 0]                                      the neuron is refractory
    spike out   = (1 − held) · fired                             no spike while refractory
    potential out = (1 − held) · afterReset + held · v           the potential is held while refractory
    current out = ((cur − c₂ · cur) + pin) + prec                the current decays and collects both drives
    counter out = (1 − spike out) · max (rho − held) 0 + spike out · 5

  The constants `c₁`, `c₂` are the binary32 words nearest to 1/10 and 1/5, each read at its own exact value: both
  programs carry the same words, so no property of these values is ever used. Every step is one operation on the
  extended reals, written in the order both programs perform it, so the two programs meet here without any
  rearrangement and without assuming the entries finite.
-/
import Idealize.ShloMosaic.Lib.ValueIdx
import Idealize.ShloMosaic.PureOps.Ideal.Laws
import proofs.«138825_j42631845380415_1_alg».proof.Proof.LibDotRows

noncomputable section

namespace Cert.Lif

open Idealize.ShloMosaic Idealize.ShloMosaic.ValueIdx Cert.Lib.DotRows

/-- The exact value of a binary32 word. -/
abbrev lit (w : BitVec 32) : EReal := Ideal.ofBits .f32 w

/-- The indicator of `x > 0` as a number: the comparison's bit read unsigned. -/
def positive (x : EReal) : EReal :=
  FloatOps.uitofp (F := Ideal) .f32 (FloatOps.cmpf (F := Ideal) (φ := .f32) .ogt x (lit 0x00000000#32))

/-- A comparison's bit widened to a word and read signed is the bit read unsigned: the word is 0 or 1. -/
theorem signed_wide_bit (b : BitVec 1) :
    FloatOps.sitofp (F := Ideal) .f32 (b.setWidth 32) = FloatOps.uitofp (F := Ideal) .f32 b := by
  show ((((b.setWidth 32).toInt : ℤ) : ℝ) : EReal) = (((b.toNat : ℕ) : ℝ) : EReal)
  have h : ∀ b : BitVec 1, (b.setWidth 32).toInt = (b.toNat : ℤ) := by decide
  rw [h b]
  norm_cast

/-- The membrane potential after leak, drive and coupling. -/
def potential (v cur cpl : EReal) : EReal :=
  v + lit 0x3DCCCCCD#32 * ((lit 0x00000000#32 - v) + cur) + cpl

/-- Whether the neuron crosses the threshold 1. -/
def fired (v cur cpl : EReal) : EReal := positive (potential v cur cpl - lit 0x3F800000#32)

/-- The potential with a spike's reset to 0 applied. -/
def afterReset (v cur cpl : EReal) : EReal :=
  (lit 0x3F800000#32 - fired v cur cpl) * potential v cur cpl + fired v cur cpl * lit 0x00000000#32

/-- Whether the neuron is refractory. -/
def held (rho : EReal) : EReal := positive rho

/-- The spike the step emits: none while refractory. -/
def spikeOut (v cur rho cpl : EReal) : EReal := (lit 0x3F800000#32 - held rho) * fired v cur cpl

/-- The potential the step leaves: held at `v` while refractory. -/
def potentialOut (v cur rho cpl : EReal) : EReal :=
  (lit 0x3F800000#32 - held rho) * afterReset v cur cpl + held rho * v

/-- The synaptic current the step leaves: its decay plus the input drive plus the recurrent drive. -/
def currentOut (cur pin prec : EReal) : EReal := ((cur - lit 0x3E4CCCCD#32 * cur) + pin) + prec

/-- The refractory counter the step leaves: counted down to 0, and set to 5 by a spike. -/
def counterOut (v cur rho cpl : EReal) : EReal :=
  (lit 0x3F800000#32 - spikeOut v cur rho cpl) * max (rho - held rho) (lit 0x00000000#32)
    + spikeOut v cur rho cpl * lit 0x40A00000#32

/-! ## The four result arrays as functions of the eight argument arrays -/

/-- Batch rows by neurons. -/
abbrev Sbh : Shape := ⟨2, ![4096, 2048]⟩
/-- Neurons by (input or neuron) columns: a weight matrix, one row per neuron. -/
abbrev Shk : Shape := ⟨2, ![2048, 2048]⟩

/-- The coupling input of neuron `i 1` in batch row `i 0`. -/
abbrev coupling (v : Sbh.Idx → EReal) (g : Shk.Idx → EReal) (i : Sbh.Idx) : EReal :=
  rowDot (M := 4096) (N := 2048) (K := 2048) v g ⟨(i 0).val, (i 0).isLt⟩ ⟨(i 1).val, (i 1).isLt⟩

def spikes (v cur rho : Sbh.Idx → EReal) (g : Shk.Idx → EReal) : Sbh.Idx → EReal :=
  fun i => spikeOut (v i) (cur i) (rho i) (coupling v g i)

def potentials (v cur rho : Sbh.Idx → EReal) (g : Shk.Idx → EReal) : Sbh.Idx → EReal :=
  fun i => potentialOut (v i) (cur i) (rho i) (coupling v g i)

def currents (inp z cur : Sbh.Idx → EReal) (win wrec : Shk.Idx → EReal) : Sbh.Idx → EReal :=
  fun i => currentOut (cur i) (coupling inp win i) (coupling z wrec i)

def counters (v cur rho : Sbh.Idx → EReal) (g : Shk.Idx → EReal) : Sbh.Idx → EReal :=
  fun i => counterOut (v i) (cur i) (rho i) (coupling v g i)

end Cert.Lif

end
-- ==== Proof.KernelBlock.lean ====
/-
  What one grid point of the kernel computes, as values.

  A grid point `(b, h)` holds rows `256·b …` of the batch and neurons `256·h …`. Its body reads the full-width
  blocks of the inputs, of the previous spikes and of the potentials (256 batch rows by all 2048 columns), the
  256-row blocks of the three weight matrices (one row per neuron of the point), and the point's own 256-by-256
  tiles of the currents and of the refractory counters; the tile of the potentials it needs for the elementwise
  part is cut out of the full-width block at column offset `256·h`. It stores four 256-by-256 tiles.

  First, for any float instance: what the body leaves in each output's staging buffer is the one covering store's
  payload, a pure term of the loaded blocks. Then, at the ideal instance: each payload read at an entry `(p, q)`
  is the neuron step of the specification at the blocks' entries, the three matrix products being the sums of a
  row of the left block against a row of the weight block (the casts to the narrower float format are the
  identity there, and an indicator widened to a word and read signed is the indicator read unsigned).
-/
import proofs.«138825_j42631845380415_1_alg».proof.Proof.Gen.KernelIdeal.Frame
import Idealize.ShloMosaic.Lib.Pipeline.Value
import Idealize.ShloMosaic.Lib.Tactic
import proofs.«138825_j42631845380415_1_alg».proof.Proof.Spec

noncomputable section

open Idealize.ShloMosaic Idealize.ShloMosaic.TcCoe Idealize.SL.Sem
open Idealize.ShloMosaic.Pipeline (Dat)

namespace Cert.Lif.Kernel

open Cert.KernelIdeal Cert.KernelIdeal.Gen Idealize.ShloMosaic.ValueIdx Cert.Lib.DotRows

variable {F : FTy → Type} [FloatOps F]

theorem hz : (![0, 0] : Fin 2 → Nat) = fun _ => 0 := funext fun a => by fin_cases a <;> rfl

/-- The point's own 256 columns of the full-width block of potentials: the block read at column offset `256·h`. -/
abbrev ownColumns (i : grid0.Coords) (x2 : Vec F S256x2048 .f32) : Vec F S256x256 .f32 :=
  View.ld x2 (Rect.unit (s := S256x2048) (k0_off1 i) S256x256.size (k0_off1_inb i))

/-! ## What the body leaves in each output's staging buffer (any float instance) -/

/-- The spikes' tile: the payload of the store to the first output, over the blocks of the potentials, the coupling weights, the currents and the counters. -/
theorem spikes_left (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (x0 : Vec F S256x2048 .f32) (x1 : Vec F S256x2048 .f32) (x2 : Vec F S256x2048 .f32) (x3 : Vec F S256x256 .f32) (x4 : Vec F S256x256 .f32) (x5 : Vec F S256x2048 .bf16) (x6 : Vec F S256x2048 .bf16) (x7 : Vec F S256x2048 .bf16) :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay5 x4 (k0_pay11 x2 x5 (ownColumns i x2) x3) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S256x2048) hz, View.ld_unit_zero (S := S256x256) hz]
  rfl

/-- The potentials' tile: the payload of the store to the second output. -/
theorem potentials_left (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (x0 : Vec F S256x2048 .f32) (x1 : Vec F S256x2048 .f32) (x2 : Vec F S256x2048 .f32) (x3 : Vec F S256x256 .f32) (x4 : Vec F S256x256 .f32) (x5 : Vec F S256x2048 .bf16) (x6 : Vec F S256x2048 .bf16) (x7 : Vec F S256x2048 .bf16) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay4 (ownColumns i x2) x4 (k0_pay9 x2 x5 (ownColumns i x2) x3) (k0_pay11 x2 x5 (ownColumns i x2) x3) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S256x2048) hz, View.ld_unit_zero (S := S256x256) hz]
  rfl

/-- The currents' tile: the payload of the store to the third output, over the blocks of the inputs, the previous spikes, the currents and the two drive weights. -/
theorem currents_left (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (x0 : Vec F S256x2048 .f32) (x1 : Vec F S256x2048 .f32) (x2 : Vec F S256x2048 .f32) (x3 : Vec F S256x256 .f32) (x4 : Vec F S256x256 .f32) (x5 : Vec F S256x2048 .bf16) (x6 : Vec F S256x2048 .bf16) (x7 : Vec F S256x2048 .bf16) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay2 (k0_pay7 x0 x6) (k0_pay8 x1 x7) (k0_pay10 x3) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S256x2048) hz, View.ld_unit_zero (S := S256x256) hz]

/-- The counters' tile: the payload of the store to the fourth output. -/
theorem counters_left (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (x0 : Vec F S256x2048 .f32) (x1 : Vec F S256x2048 .f32) (x2 : Vec F S256x2048 .f32) (x3 : Vec F S256x256 .f32) (x4 : Vec F S256x256 .f32) (x5 : Vec F S256x2048 .bf16) (x6 : Vec F S256x2048 .bf16) (x7 : Vec F S256x2048 .bf16) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay6 x4 (k0_pay11 x2 x5 (ownColumns i x2) x3) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S256x2048) hz, View.ld_unit_zero (S := S256x256) hz]
  rfl

/-! ## The payloads at an entry (ideal instance) -/

/-- The product record's coordinates: the left operand is read at the output's row … -/
theorem lhs_row (i : S256x256.Idx) (q : dot_S256x2048_S256x2048_S256x256_1_1_0_0_n_n.contr.Idx) :
    (dot_S256x2048_S256x2048_S256x256_1_1_0_0_n_n.lhsIdx i q 0).val = (i 0).val := by
  unfold DotDims.lhsIdx
  rw [dif_neg (show ¬(0 : Fin S256x2048.rank) ∈ dot_S256x2048_S256x2048_S256x256_1_1_0_0_n_n.lhsBatch by decide), dif_pos (show (0 : Fin S256x2048.rank) ∈ dot_S256x2048_S256x2048_S256x256_1_1_0_0_n_n.lhsNonContracting by decide)]
  rfl
/-- … and the contracted column; -/
theorem lhs_contracted (i : S256x256.Idx) (q : dot_S256x2048_S256x2048_S256x256_1_1_0_0_n_n.contr.Idx) :
    (dot_S256x2048_S256x2048_S256x256_1_1_0_0_n_n.lhsIdx i q 1).val = (q ⟨0, by decide⟩).val :=
  dot_S256x2048_S256x2048_S256x256_1_1_0_0_n_n.lhsIdx_val_of_single rfl i q
/-- the right operand is read at the row the output's COLUMN names … -/
theorem rhs_row (i : S256x256.Idx) (q : dot_S256x2048_S256x2048_S256x256_1_1_0_0_n_n.contr.Idx) :
    (dot_S256x2048_S256x2048_S256x256_1_1_0_0_n_n.rhsIdx i q 0).val = (i 1).val := by
  unfold DotDims.rhsIdx
  rw [dif_neg (show ¬(0 : Fin S256x2048.rank) ∈ dot_S256x2048_S256x2048_S256x256_1_1_0_0_n_n.rhsBatch by decide), dif_pos (show (0 : Fin S256x2048.rank) ∈ dot_S256x2048_S256x2048_S256x256_1_1_0_0_n_n.rhsNonContracting by decide)]
  rfl
/-- … and the contracted column. -/
theorem rhs_contracted (i : S256x256.Idx) (q : dot_S256x2048_S256x2048_S256x256_1_1_0_0_n_n.contr.Idx) :
    (dot_S256x2048_S256x2048_S256x256_1_1_0_0_n_n.rhsIdx i q 1).val = (q ⟨0, by decide⟩).val :=
  dot_S256x2048_S256x2048_S256x256_1_1_0_0_n_n.rhsIdx_val_of_single rfl i q

/-- One of the body's three matrix products at an entry: row `p` of the left block against row `q` of the weight
    block. The cast of the left block to the narrower format and the same-shape cast of the weight block are the
    identity on the extended reals. -/
theorem product_at (a : Vec Ideal S256x2048 .f32) (w : Vec Ideal S256x2048 .bf16) (p q : Fin 256) :
    matmul (F := Ideal) (φ₁ := .bf16) (φ₂ := .bf16) dot_S256x2048_S256x2048_S256x256_1_1_0_0_n_n none (truncf .bf16 a bitsLt_bf16_f32)
      (shapeCast S256x2048 w shapeCasts_S256x2048_S256x2048 : FVec Ideal S256x2048 .bf16)
      (constant (F := Ideal) S256x256 .f32 0x00000000#32) (ix2 p q)
      = rowDot (M := 256) (N := 256) (K := 2048) a w p q := by
  rw [shapeCast_self]
  exact matmul_zero_rows (φ₁ := .bf16) (φ₂ := .bf16) dot_S256x2048_S256x2048_S256x256_1_1_0_0_n_n none rfl rfl lhs_row lhs_contracted rhs_row rhs_contracted
    (truncf .bf16 a bitsLt_bf16_f32) w p q

/-- The body's indicator of `x > 0`, widened to a word and converted signed, at an entry. -/
theorem indicator_at (x : FVec Ideal S256x256 .f32) (j : S256x256.Idx) :
    k0_pay1 (F := Ideal) x j = positive (x j) :=
  signed_wide_bit _

/-- The same for the refractory indicator (the body computes it by a second copy of the same operations). -/
theorem refractory_at (x : Vec Ideal S256x256 .f32) (j : S256x256.Idx) :
    k0_pay3 (F := Ideal) x j = held (x j) :=
  signed_wide_bit _

/-- The potential after leak, drive and coupling, at an entry. -/
theorem potential_at (vblk : Vec Ideal S256x2048 .f32) (gblk : Vec Ideal S256x2048 .bf16)
    (vt cur : Vec Ideal S256x256 .f32) (p q : Fin 256) :
    k0_pay9 (F := Ideal) vblk gblk vt cur (ix2 p q)
      = potential (vt (ix2 p q)) (cur (ix2 p q)) (rowDot (M := 256) (N := 256) (K := 2048) vblk gblk p q) :=
  congrArg (vt (ix2 p q) + lit 0x3DCCCCCD#32 * ((lit 0x00000000#32 - vt (ix2 p q)) + cur (ix2 p q)) + ·)
    (product_at vblk gblk p q)

/-- The potential less the threshold, at an entry. -/
theorem overThreshold_at (vblk : Vec Ideal S256x2048 .f32) (gblk : Vec Ideal S256x2048 .bf16)
    (vt cur : Vec Ideal S256x256 .f32) (p q : Fin 256) :
    k0_pay11 (F := Ideal) vblk gblk vt cur (ix2 p q)
      = potential (vt (ix2 p q)) (cur (ix2 p q)) (rowDot (M := 256) (N := 256) (K := 2048) vblk gblk p q) - lit 0x3F800000#32 :=
  congrArg (· - lit 0x3F800000#32) (potential_at vblk gblk vt cur p q)

/-- The spikes' payload at an entry is the specification's spike. -/
theorem spikes_at (vblk : Vec Ideal S256x2048 .f32) (gblk : Vec Ideal S256x2048 .bf16)
    (vt cur rho : Vec Ideal S256x256 .f32) (p q : Fin 256) :
    k0_pay5 (F := Ideal) rho (k0_pay11 vblk gblk vt cur) (ix2 p q)
      = spikeOut (vt (ix2 p q)) (cur (ix2 p q)) (rho (ix2 p q)) (rowDot (M := 256) (N := 256) (K := 2048) vblk gblk p q) := by
  show (lit 0x3F800000#32 - k0_pay3 (F := Ideal) rho (ix2 p q)) * k0_pay1 (F := Ideal) (k0_pay11 vblk gblk vt cur) (ix2 p q) = _
  rw [refractory_at, indicator_at, overThreshold_at]
  rfl

/-- The potentials' payload at an entry is the specification's potential. -/
theorem potentials_at (vblk : Vec Ideal S256x2048 .f32) (gblk : Vec Ideal S256x2048 .bf16)
    (vt cur rho : Vec Ideal S256x256 .f32) (p q : Fin 256) :
    k0_pay4 (F := Ideal) vt rho (k0_pay9 vblk gblk vt cur) (k0_pay11 vblk gblk vt cur) (ix2 p q)
      = potentialOut (vt (ix2 p q)) (cur (ix2 p q)) (rho (ix2 p q)) (rowDot (M := 256) (N := 256) (K := 2048) vblk gblk p q) := by
  show (lit 0x3F800000#32 - k0_pay3 (F := Ideal) rho (ix2 p q))
        * ((lit 0x3F800000#32 - k0_pay1 (F := Ideal) (k0_pay11 vblk gblk vt cur) (ix2 p q)) * k0_pay9 (F := Ideal) vblk gblk vt cur (ix2 p q)
            + k0_pay1 (F := Ideal) (k0_pay11 vblk gblk vt cur) (ix2 p q) * lit 0x00000000#32)
      + k0_pay3 (F := Ideal) rho (ix2 p q) * vt (ix2 p q) = _
  rw [refractory_at, indicator_at, overThreshold_at, potential_at]
  rfl

/-- The currents' payload at an entry is the specification's current. -/
theorem currents_at (iblk zblk : Vec Ideal S256x2048 .f32) (wi wr : Vec Ideal S256x2048 .bf16)
    (cur : Vec Ideal S256x256 .f32) (p q : Fin 256) :
    k0_pay2 (F := Ideal) (k0_pay7 iblk wi) (k0_pay8 zblk wr) (k0_pay10 cur) (ix2 p q)
      = currentOut (cur (ix2 p q)) (rowDot (M := 256) (N := 256) (K := 2048) iblk wi p q)
          (rowDot (M := 256) (N := 256) (K := 2048) zblk wr p q) := by
  show ((cur (ix2 p q) - lit 0x3E4CCCCD#32 * cur (ix2 p q)) + k0_pay7 (F := Ideal) iblk wi (ix2 p q))
      + k0_pay8 (F := Ideal) zblk wr (ix2 p q) = _
  rw [show k0_pay7 (F := Ideal) iblk wi (ix2 p q) = rowDot (M := 256) (N := 256) (K := 2048) iblk wi p q from product_at iblk wi p q,
    show k0_pay8 (F := Ideal) zblk wr (ix2 p q) = rowDot (M := 256) (N := 256) (K := 2048) zblk wr p q from product_at zblk wr p q]
  rfl

/-- The counters' payload at an entry is the specification's counter. -/
theorem counters_at (vblk : Vec Ideal S256x2048 .f32) (gblk : Vec Ideal S256x2048 .bf16)
    (vt cur rho : Vec Ideal S256x256 .f32) (p q : Fin 256) :
    k0_pay6 (F := Ideal) rho (k0_pay11 vblk gblk vt cur) (ix2 p q)
      = counterOut (vt (ix2 p q)) (cur (ix2 p q)) (rho (ix2 p q)) (rowDot (M := 256) (N := 256) (K := 2048) vblk gblk p q) := by
  show (lit 0x3F800000#32 - k0_pay5 (F := Ideal) rho (k0_pay11 vblk gblk vt cur) (ix2 p q))
        * max (rho (ix2 p q) - k0_pay3 (F := Ideal) rho (ix2 p q)) (lit 0x00000000#32)
      + k0_pay5 (F := Ideal) rho (k0_pay11 vblk gblk vt cur) (ix2 p q) * lit 0x40A00000#32 = _
  rw [spikes_at, refractory_at]
  rfl

end Cert.Lif.Kernel

end
-- ==== Proof.KernelArray.lean ====
/-
  From the grid points' tiles to the four result arrays.

  The grid is 16 by 8: point `(b, h)` owns batch rows `256·b … 256·b + 255` and neurons `256·h … 256·h + 255`.
  At that point the blocks of the inputs, of the previous spikes and of the potentials are rows `256·b …` of their
  arrays at full width; the tiles of the currents and of the counters, and the four output tiles, are rows
  `256·b …` by columns `256·h …`; the blocks of the three weight matrices are rows `256·h …` at full width (one
  row per neuron of the point), and the arrays they are cut from are the weight arguments cast to a narrower
  float format before the launch, which on the extended reals is the argument itself. So an entry of a block is
  an entry of an argument array, and the neuron step of the block entries at `(p, q)` is the specification's array
  at `(256·b + p, 256·h + q)`: the coupling sum of a block row against a weight-block row is the sum of the array
  row `256·b + p` against the weight row `256·h + q`, term by term. What a point writes back is therefore its tile
  of the specification's array; the 128 tiles cover each result array, so each array ends at the specification.
-/
import proofs.«138825_j42631845380415_1_alg».proof.Proof.Gen.KernelIdeal.Value
import proofs.«138825_j42631845380415_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.Lif.Kernel

open Cert.KernelIdeal Cert.KernelIdeal.Gen Cert.KernelIdeal.Value Idealize.ShloMosaic.ValueIdx Cert.Lib.DotRows

variable (m : (ℓ : Loc nD τ sig) → Buf (Elt Ideal) ℓ) (ρ : Dev nD → PrngReg)

/-! ## Where a grid point's blocks lie: the printed index maps, decided over the 128 points

Every window's block index is read off the first output's: `win0_8.index t` is `(b, h)`. -/

theorem place0 : ∀ t : Fin cfg0.N, win0_0.index t (0 : Fin 2) = win0_8.index t (0 : Fin 2) ∧ win0_0.index t (1 : Fin 2) = 0 :=
  (by decide +kernel : ∀ t : Fin grid0.N, _)
theorem place1 : ∀ t : Fin cfg0.N, win0_1.index t (0 : Fin 2) = win0_8.index t (0 : Fin 2) ∧ win0_1.index t (1 : Fin 2) = 0 :=
  (by decide +kernel : ∀ t : Fin grid0.N, _)
theorem place2 : ∀ t : Fin cfg0.N, win0_2.index t (0 : Fin 2) = win0_8.index t (0 : Fin 2) ∧ win0_2.index t (1 : Fin 2) = 0 :=
  (by decide +kernel : ∀ t : Fin grid0.N, _)
theorem place3 : ∀ t : Fin cfg0.N, win0_3.index t (0 : Fin 2) = win0_8.index t (0 : Fin 2) ∧ win0_3.index t (1 : Fin 2) = win0_8.index t (1 : Fin 2) :=
  (by decide +kernel : ∀ t : Fin grid0.N, _)
theorem place4 : ∀ t : Fin cfg0.N, win0_4.index t (0 : Fin 2) = win0_8.index t (0 : Fin 2) ∧ win0_4.index t (1 : Fin 2) = win0_8.index t (1 : Fin 2) :=
  (by decide +kernel : ∀ t : Fin grid0.N, _)
theorem place5 : ∀ t : Fin cfg0.N, win0_5.index t (0 : Fin 2) = win0_8.index t (1 : Fin 2) ∧ win0_5.index t (1 : Fin 2) = 0 :=
  (by decide +kernel : ∀ t : Fin grid0.N, _)
theorem place6 : ∀ t : Fin cfg0.N, win0_6.index t (0 : Fin 2) = win0_8.index t (1 : Fin 2) ∧ win0_6.index t (1 : Fin 2) = 0 :=
  (by decide +kernel : ∀ t : Fin grid0.N, _)
theorem place7 : ∀ t : Fin cfg0.N, win0_7.index t (0 : Fin 2) = win0_8.index t (1 : Fin 2) ∧ win0_7.index t (1 : Fin 2) = 0 :=
  (by decide +kernel : ∀ t : Fin grid0.N, _)
theorem place9 : ∀ t : Fin cfg0.N, win0_9.index t (0 : Fin 2) = win0_8.index t (0 : Fin 2) ∧ win0_9.index t (1 : Fin 2) = win0_8.index t (1 : Fin 2) :=
  (by decide +kernel : ∀ t : Fin grid0.N, _)
theorem place10 : ∀ t : Fin cfg0.N, win0_10.index t (0 : Fin 2) = win0_8.index t (0 : Fin 2) ∧ win0_10.index t (1 : Fin 2) = win0_8.index t (1 : Fin 2) :=
  (by decide +kernel : ∀ t : Fin grid0.N, _)
theorem place11 : ∀ t : Fin cfg0.N, win0_11.index t (0 : Fin 2) = win0_8.index t (0 : Fin 2) ∧ win0_11.index t (1 : Fin 2) = win0_8.index t (1 : Fin 2) :=
  (by decide +kernel : ∀ t : Fin grid0.N, _)
/-- The tile of the potentials is cut at column `256·h` of the full-width block. -/
theorem placeOwn : ∀ t : Fin cfg0.N, k0_off1 (grid0.coords t) (0 : Fin 2) = 0
    ∧ k0_off1 (grid0.coords t) (1 : Fin 2) = win0_8.index t (1 : Fin 2) * 256 :=
  (by decide +kernel : ∀ t : Fin grid0.N, _)
/-- The grid is 16 by 8. -/
theorem inGrid : ∀ t : Fin cfg0.N, win0_8.index t (0 : Fin 2) ≤ 15 ∧ win0_8.index t (1 : Fin 2) ≤ 7 :=
  (by decide +kernel : ∀ t : Fin grid0.N, _)
/-- Every `(b, h)` is some point's. -/
theorem everyTile : ∀ (b : Fin 16) (h : Fin 8), ∃ t : Fin cfg0.N, win0_8.index t = ![b.val, h.val] :=
  (by decide +kernel : ∀ (b : Fin 16) (h : Fin 8), ∃ t : Fin grid0.N, win0_8.index t = ![b.val, h.val])

/-- The batch row of a point's local row. -/
def row (t : Fin cfg0.N) (p : Fin 256) : Fin 4096 :=
  ⟨win0_8.index t (0 : Fin 2) * 256 + p.val, by have := (inGrid t).1; have := p.isLt; omega⟩
/-- The neuron of a point's local column. -/
def col (t : Fin cfg0.N) (q : Fin 256) : Fin 2048 :=
  ⟨win0_8.index t (1 : Fin 2) * 256 + q.val, by have := (inGrid t).2; have := q.isLt; omega⟩

/-! ## The argument arrays and a point's blocks, at their literal types -/

abbrev inpArr (c : Dev nD) : Sbh.Idx → EReal := m ((c : Thread nD τ).loc main_arg0)
abbrev zArr (c : Dev nD) : Sbh.Idx → EReal := m ((c : Thread nD τ).loc main_arg1)
abbrev vArr (c : Dev nD) : Sbh.Idx → EReal := m ((c : Thread nD τ).loc main_arg2)
abbrev curArr (c : Dev nD) : Sbh.Idx → EReal := m ((c : Thread nD τ).loc main_arg3)
abbrev rhoArr (c : Dev nD) : Sbh.Idx → EReal := m ((c : Thread nD τ).loc main_arg4)
abbrev winArr (c : Dev nD) : Shk.Idx → EReal := m ((c : Thread nD τ).loc main_arg5)
abbrev wrecArr (c : Dev nD) : Shk.Idx → EReal := m ((c : Thread nD τ).loc main_arg6)
abbrev gArr (c : Dev nD) : Shk.Idx → EReal := m ((c : Thread nD τ).loc main_arg7)

abbrev inpBlock (c : Dev nD) (t : Fin cfg0.N) : Vec Ideal S256x2048 .f32 := iblk m c 0 t
abbrev zBlock (c : Dev nD) (t : Fin cfg0.N) : Vec Ideal S256x2048 .f32 := iblk m c 1 t
abbrev vBlock (c : Dev nD) (t : Fin cfg0.N) : Vec Ideal S256x2048 .f32 := iblk m c 2 t
abbrev curTile (c : Dev nD) (t : Fin cfg0.N) : Vec Ideal S256x256 .f32 := iblk m c 3 t
abbrev rhoTile (c : Dev nD) (t : Fin cfg0.N) : Vec Ideal S256x256 .f32 := iblk m c 4 t
abbrev gBlock (c : Dev nD) (t : Fin cfg0.N) : Vec Ideal S256x2048 .bf16 := iblk m c 5 t
abbrev winBlock (c : Dev nD) (t : Fin cfg0.N) : Vec Ideal S256x2048 .bf16 := iblk m c 6 t
abbrev wrecBlock (c : Dev nD) (t : Fin cfg0.N) : Vec Ideal S256x2048 .bf16 := iblk m c 7 t

/-! ## The weight arrays as the region finds them: the arguments, cast before the launch -/

theorem gFound (c : Dev nD) : (V m c main_v0 : S2048x2048.Idx → EReal) = gArr m c := by
  dsimp only [Gen.V, Gen.hostOps0]; after_results; rfl
theorem winFound (c : Dev nD) : (V m c main_v1 : S2048x2048.Idx → EReal) = winArr m c := by
  dsimp only [Gen.V, Gen.hostOps0]; after_results; rfl
theorem wrecFound (c : Dev nD) : (V m c main_v2 : S2048x2048.Idx → EReal) = wrecArr m c := by
  dsimp only [Gen.V, Gen.hostOps0]; after_results; rfl

/-! ## A block entry is an array entry -/

theorem inpBlock_at (c : Dev nD) (t : Fin cfg0.N) (p : Fin 256) (a : Fin 2048) :
    inpBlock m c t (ix2 p a) = inpArr m c (ix2 (row t p) a) := by
  obtain ⟨e0, e1⟩ := place0 t
  unfold inpBlock iblk
  rw [View.read_apply]
  show V m c main_arg0 _ = inpArr m c _
  rw [V_main_arg0 m c]
  congr 1
  funext d
  apply Fin.ext
  match d with
  | ⟨0, _⟩ => show win0_0.index t (0 : Fin 2) * 256 + 1 * p.val = win0_8.index t (0 : Fin 2) * 256 + p.val; rw [e0]; omega
  | ⟨1, _⟩ => show win0_0.index t (1 : Fin 2) * 2048 + 1 * a.val = a.val; rw [e1]; omega
theorem zBlock_at (c : Dev nD) (t : Fin cfg0.N) (p : Fin 256) (a : Fin 2048) :
    zBlock m c t (ix2 p a) = zArr m c (ix2 (row t p) a) := by
  obtain ⟨e0, e1⟩ := place1 t
  unfold zBlock iblk
  rw [View.read_apply]
  show V m c main_arg1 _ = zArr m c _
  rw [V_main_arg1 m c]
  congr 1
  funext d
  apply Fin.ext
  match d with
  | ⟨0, _⟩ => show win0_1.index t (0 : Fin 2) * 256 + 1 * p.val = win0_8.index t (0 : Fin 2) * 256 + p.val; rw [e0]; omega
  | ⟨1, _⟩ => show win0_1.index t (1 : Fin 2) * 2048 + 1 * a.val = a.val; rw [e1]; omega
theorem vBlock_at (c : Dev nD) (t : Fin cfg0.N) (p : Fin 256) (a : Fin 2048) :
    vBlock m c t (ix2 p a) = vArr m c (ix2 (row t p) a) := by
  obtain ⟨e0, e1⟩ := place2 t
  unfold vBlock iblk
  rw [View.read_apply]
  show V m c main_arg2 _ = vArr m c _
  rw [V_main_arg2 m c]
  congr 1
  funext d
  apply Fin.ext
  match d with
  | ⟨0, _⟩ => show win0_2.index t (0 : Fin 2) * 256 + 1 * p.val = win0_8.index t (0 : Fin 2) * 256 + p.val; rw [e0]; omega
  | ⟨1, _⟩ => show win0_2.index t (1 : Fin 2) * 2048 + 1 * a.val = a.val; rw [e1]; omega
theorem curTile_at (c : Dev nD) (t : Fin cfg0.N) (p q : Fin 256) :
    curTile m c t (ix2 p q) = curArr m c (ix2 (row t p) (col t q)) := by
  obtain ⟨e0, e1⟩ := place3 t
  unfold curTile iblk
  rw [View.read_apply]
  show V m c main_arg3 _ = curArr m c _
  rw [V_main_arg3 m c]
  congr 1
  funext d
  apply Fin.ext
  match d with
  | ⟨0, _⟩ => show win0_3.index t (0 : Fin 2) * 256 + 1 * p.val = win0_8.index t (0 : Fin 2) * 256 + p.val; rw [e0]; omega
  | ⟨1, _⟩ => show win0_3.index t (1 : Fin 2) * 256 + 1 * q.val = win0_8.index t (1 : Fin 2) * 256 + q.val; rw [e1]; omega
theorem rhoTile_at (c : Dev nD) (t : Fin cfg0.N) (p q : Fin 256) :
    rhoTile m c t (ix2 p q) = rhoArr m c (ix2 (row t p) (col t q)) := by
  obtain ⟨e0, e1⟩ := place4 t
  unfold rhoTile iblk
  rw [View.read_apply]
  show V m c main_arg4 _ = rhoArr m c _
  rw [V_main_arg4 m c]
  congr 1
  funext d
  apply Fin.ext
  match d with
  | ⟨0, _⟩ => show win0_4.index t (0 : Fin 2) * 256 + 1 * p.val = win0_8.index t (0 : Fin 2) * 256 + p.val; rw [e0]; omega
  | ⟨1, _⟩ => show win0_4.index t (1 : Fin 2) * 256 + 1 * q.val = win0_8.index t (1 : Fin 2) * 256 + q.val; rw [e1]; omega
theorem gBlock_at (c : Dev nD) (t : Fin cfg0.N) (q : Fin 256) (a : Fin 2048) :
    gBlock m c t (ix2 q a) = gArr m c (ix2 (col t q) a) := by
  obtain ⟨e0, e1⟩ := place5 t
  unfold gBlock iblk
  rw [View.read_apply]
  show V m c main_v0 _ = gArr m c _
  rw [gFound m c]
  congr 1
  funext d
  apply Fin.ext
  match d with
  | ⟨0, _⟩ => show win0_5.index t (0 : Fin 2) * 256 + 1 * q.val = win0_8.index t (1 : Fin 2) * 256 + q.val; rw [e0]; omega
  | ⟨1, _⟩ => show win0_5.index t (1 : Fin 2) * 2048 + 1 * a.val = a.val; rw [e1]; omega
theorem winBlock_at (c : Dev nD) (t : Fin cfg0.N) (q : Fin 256) (a : Fin 2048) :
    winBlock m c t (ix2 q a) = winArr m c (ix2 (col t q) a) := by
  obtain ⟨e0, e1⟩ := place6 t
  unfold winBlock iblk
  rw [View.read_apply]
  show V m c main_v1 _ = winArr m c _
  rw [winFound m c]
  congr 1
  funext d
  apply Fin.ext
  match d with
  | ⟨0, _⟩ => show win0_6.index t (0 : Fin 2) * 256 + 1 * q.val = win0_8.index t (1 : Fin 2) * 256 + q.val; rw [e0]; omega
  | ⟨1, _⟩ => show win0_6.index t (1 : Fin 2) * 2048 + 1 * a.val = a.val; rw [e1]; omega
theorem wrecBlock_at (c : Dev nD) (t : Fin cfg0.N) (q : Fin 256) (a : Fin 2048) :
    wrecBlock m c t (ix2 q a) = wrecArr m c (ix2 (col t q) a) := by
  obtain ⟨e0, e1⟩ := place7 t
  unfold wrecBlock iblk
  rw [View.read_apply]
  show V m c main_v2 _ = wrecArr m c _
  rw [wrecFound m c]
  congr 1
  funext d
  apply Fin.ext
  match d with
  | ⟨0, _⟩ => show win0_7.index t (0 : Fin 2) * 256 + 1 * q.val = win0_8.index t (1 : Fin 2) * 256 + q.val; rw [e0]; omega
  | ⟨1, _⟩ => show win0_7.index t (1 : Fin 2) * 2048 + 1 * a.val = a.val; rw [e1]; omega

/-- The point's own columns of its block of potentials are the potentials' array at the point's rows and columns. -/
theorem ownColumns_at (c : Dev nD) (t : Fin cfg0.N) (p q : Fin 256) :
    ownColumns (grid0.coords t) (vBlock m c t) (ix2 p q) = vArr m c (ix2 (row t p) (col t q)) := by
  obtain ⟨o0, o1⟩ := placeOwn t
  have hidx : (Rect.unit (s := S256x2048) (k0_off1 (grid0.coords t)) S256x256.size (k0_off1_inb (grid0.coords t))).idx (ix2 p q)
      = ix2 (n0 := 256) (n1 := 2048) p (col t q) := funext fun d => Fin.ext (by
    match d with
    | ⟨0, _⟩ => show k0_off1 (grid0.coords t) (0 : Fin 2) + 1 * p.val = p.val; rw [o0]; omega
    | ⟨1, _⟩ => show k0_off1 (grid0.coords t) (1 : Fin 2) + 1 * q.val = win0_8.index t (1 : Fin 2) * 256 + q.val; rw [o1]; omega)
  show vBlock m c t ((Rect.unit (s := S256x2048) (k0_off1 (grid0.coords t)) S256x256.size (k0_off1_inb (grid0.coords t))).idx (ix2 p q)) = _
  rw [hidx, vBlock_at]

/-- A block row against a weight-block row is the array row against the weight row, term by term. -/
theorem rows_agree (L : Vec Ideal S256x2048 .f32) (W : Vec Ideal S256x2048 .bf16) (A : Sbh.Idx → EReal) (G : Shk.Idx → EReal)
    (r : Fin 4096) (s : Fin 2048) (p q : Fin 256)
    (hL : ∀ a : Fin 2048, L (ix2 p a) = A (ix2 r a)) (hW : ∀ a : Fin 2048, W (ix2 q a) = G (ix2 s a)) :
    rowDot (M := 256) (N := 256) (K := 2048) L W p q = rowDot (M := 4096) (N := 2048) (K := 2048) A G r s := by
  unfold rowDot
  exact Finset.sum_congr rfl fun a _ => by rw [hL a, hW a]

/-! ## Per result: a point's write-back, the cover, the array after the run -/

/-! ### The spikes -/

/-- The spikes' payload of a point's blocks, at a local entry, is the specification's array at the entry's place. -/
theorem spikes_point (c : Dev nD) (t : Fin cfg0.N) (j : S256x256.Idx) :
    k0_pay5 (F := Ideal) (rhoTile m c t) (k0_pay11 (vBlock m c t) (gBlock m c t) (ownColumns (grid0.coords t) (vBlock m c t)) (curTile m c t)) j
      = spikes (vArr m c) (curArr m c) (rhoArr m c) (gArr m c) (ix2 (row t (j 0)) (col t (j 1))) := by
  obtain ⟨p, q, rfl⟩ : ∃ (p q : Fin 256), j = ix2 p q := ⟨j 0, j 1, eq_ix2 j⟩
  rw [spikes_at, ownColumns_at, curTile_at, rhoTile_at,
    rows_agree (vBlock m c t) (gBlock m c t) (vArr m c) (gArr m c) (row t p) (col t q) p q (vBlock_at m c t p) (gBlock_at m c t q)]
  rfl

/-- A local entry of the point's tile of the spikes' array lies at row `256·b + p`, column `256·h + q`. -/
theorem tile8_place (t : Fin cfg0.N) (j : S256x256.Idx) :
    ((cfg0.win 8).blk t).view.emb j = ix2 (n0 := 4096) (n1 := 2048) (row t (j 0)) (col t (j 1)) := by
  funext d
  apply Fin.ext
  match d with
  | ⟨0, _⟩ => show win0_8.index t (0 : Fin 2) * 256 + 1 * (j 0).val = win0_8.index t (0 : Fin 2) * 256 + (j 0).val; omega
  | ⟨1, _⟩ => show win0_8.index t (1 : Fin 2) * 256 + 1 * (j 1).val = win0_8.index t (1 : Fin 2) * 256 + (j 1).val; omega

/-- What a point writes back to the spikes' array is its tile of the specification's array. -/
theorem spikes_flushed (c : Dev nD) (t : Fin cfg0.N) :
    (dats m 0 c).flushed 8 t = ((cfg0.win 8).blk t).view.read (Elt Ideal) (spikes (vArr m c) (curArr m c) (rhoArr m c) (gArr m c)) := by
  rw [flushed8_A, spikes_left]
  funext j
  show k0_pay5 (F := Ideal) (rhoTile m c t) (k0_pay11 (vBlock m c t) (gBlock m c t) (ownColumns (grid0.coords t) (vBlock m c t)) (curTile m c t)) j
      = spikes (vArr m c) (curArr m c) (rhoArr m c) (gArr m c) (((cfg0.win 8).blk t).view.emb j)
  rw [tile8_place]
  exact spikes_point m c t j

/-- An index of the spikes' array is in a point's tile iff each coordinate is in the tile's range. -/
theorem mem_tile8 (t : Fin cfg0.N) (i : S4096x2048.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v3_0).slice (win0_8.rect t)).set ↔ _
  rw [View.set_slice_whole, Rect.mem_set_unit]
  exact Iff.rfl

/-- The tiles cover the spikes' array: index `(r, s)` is in the tile of the point `(r / 256, s / 256)`. -/
theorem covered8 (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := everyTile ⟨(i 0).val / 256, by omega⟩ ⟨(i 1).val / 256, by omega⟩
  have q0 : win0_8.index t (0 : Fin 2) = (i 0).val / 256 := congrFun ht 0
  have q1 : win0_8.index t (1 : Fin 2) = (i 1).val / 256 := congrFun ht 1
  refine ⟨t, flush0_8 t, ?_⟩
  rw [mem_tile8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 256 ≤ (i 1).val ∧ (i 1).val < win0_8.index t (1 : Fin 2) * 256 + 256; omega

/-- So the spikes' array ends at the specification. -/
theorem spikes_final (c : Dev nD) : (dats m 0 c).arrAt 8 cfg0.N = spikes (vArr m c) (curArr m c) (rhoArr m c) (gArr m c) :=
  (dats m 0 c).arrAt_eq_of_cover 8 (spikes (vArr m c) (curArr m c) (rhoArr m c) (gArr m c)) (fun t _ => spikes_flushed m c t) covered8

/-! ### The potentials -/

/-- The potentials' payload of a point's blocks, at a local entry, is the specification's array at the entry's place. -/
theorem potentials_point (c : Dev nD) (t : Fin cfg0.N) (j : S256x256.Idx) :
    k0_pay4 (F := Ideal) (ownColumns (grid0.coords t) (vBlock m c t)) (rhoTile m c t) (k0_pay9 (vBlock m c t) (gBlock m c t) (ownColumns (grid0.coords t) (vBlock m c t)) (curTile m c t)) (k0_pay11 (vBlock m c t) (gBlock m c t) (ownColumns (grid0.coords t) (vBlock m c t)) (curTile m c t)) j
      = potentials (vArr m c) (curArr m c) (rhoArr m c) (gArr m c) (ix2 (row t (j 0)) (col t (j 1))) := by
  obtain ⟨p, q, rfl⟩ : ∃ (p q : Fin 256), j = ix2 p q := ⟨j 0, j 1, eq_ix2 j⟩
  rw [potentials_at, ownColumns_at, curTile_at, rhoTile_at,
    rows_agree (vBlock m c t) (gBlock m c t) (vArr m c) (gArr m c) (row t p) (col t q) p q (vBlock_at m c t p) (gBlock_at m c t q)]
  rfl

/-- A local entry of the point's tile of the potentials' array lies at row `256·b + p`, column `256·h + q`. -/
theorem tile9_place (t : Fin cfg0.N) (j : S256x256.Idx) :
    ((cfg0.win 9).blk t).view.emb j = ix2 (n0 := 4096) (n1 := 2048) (row t (j 0)) (col t (j 1)) := by
  obtain ⟨e0, e1⟩ := place9 t
  funext d
  apply Fin.ext
  match d with
  | ⟨0, _⟩ => show win0_9.index t (0 : Fin 2) * 256 + 1 * (j 0).val = win0_8.index t (0 : Fin 2) * 256 + (j 0).val; rw [e0]; omega
  | ⟨1, _⟩ => show win0_9.index t (1 : Fin 2) * 256 + 1 * (j 1).val = win0_8.index t (1 : Fin 2) * 256 + (j 1).val; rw [e1]; omega

/-- What a point writes back to the potentials' array is its tile of the specification's array. -/
theorem potentials_flushed (c : Dev nD) (t : Fin cfg0.N) :
    (dats m 0 c).flushed 9 t = ((cfg0.win 9).blk t).view.read (Elt Ideal) (potentials (vArr m c) (curArr m c) (rhoArr m c) (gArr m c)) := by
  rw [flushed9_A, potentials_left]
  funext j
  show k0_pay4 (F := Ideal) (ownColumns (grid0.coords t) (vBlock m c t)) (rhoTile m c t) (k0_pay9 (vBlock m c t) (gBlock m c t) (ownColumns (grid0.coords t) (vBlock m c t)) (curTile m c t)) (k0_pay11 (vBlock m c t) (gBlock m c t) (ownColumns (grid0.coords t) (vBlock m c t)) (curTile m c t)) j
      = potentials (vArr m c) (curArr m c) (rhoArr m c) (gArr m c) (((cfg0.win 9).blk t).view.emb j)
  rw [tile9_place]
  exact potentials_point m c t j

/-- An index of the potentials' array is in a point's tile iff each coordinate is in the tile's range. -/
theorem mem_tile9 (t : Fin cfg0.N) (i : S4096x2048.Idx) :
    i ∈ ((cfg0.win 9).blk t).view.set ↔ ∀ a : Fin 2, win0_9.index t a * S256x256.size a ≤ (i a).val ∧ (i a).val < win0_9.index t a * S256x256.size a + S256x256.size a := by
  show i ∈ ((View.whole main_v3_1).slice (win0_9.rect t)).set ↔ _
  rw [View.set_slice_whole, Rect.mem_set_unit]
  exact Iff.rfl

/-- The tiles cover the potentials' array: index `(r, s)` is in the tile of the point `(r / 256, s / 256)`. -/
theorem covered9 (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  obtain ⟨t, ht⟩ := everyTile ⟨(i 0).val / 256, by omega⟩ ⟨(i 1).val / 256, by omega⟩
  have q0 : win0_8.index t (0 : Fin 2) = (i 0).val / 256 := congrFun ht 0
  have q1 : win0_8.index t (1 : Fin 2) = (i 1).val / 256 := congrFun ht 1
  obtain ⟨e0, e1⟩ := place9 t
  refine ⟨t, flush0_9 t, ?_⟩
  rw [mem_tile9]
  intro a
  match a with
  | ⟨0, _⟩ => show win0_9.index t (0 : Fin 2) * 256 ≤ (i 0).val ∧ (i 0).val < win0_9.index t (0 : Fin 2) * 256 + 256; rw [e0]; omega
  | ⟨1, _⟩ => show win0_9.index t (1 : Fin 2) * 256 ≤ (i 1).val ∧ (i 1).val < win0_9.index t (1 : Fin 2) * 256 + 256; rw [e1]; omega

/-- So the potentials' array ends at the specification. -/
theorem potentials_final (c : Dev nD) : (dats m 0 c).arrAt 9 cfg0.N = potentials (vArr m c) (curArr m c) (rhoArr m c) (gArr m c) :=
  (dats m 0 c).arrAt_eq_of_cover 9 (potentials (vArr m c) (curArr m c) (rhoArr m c) (gArr m c)) (fun t _ => potentials_flushed m c t) covered9

/-! ### The currents -/

/-- The currents' payload of a point's blocks, at a local entry, is the specification's array at the entry's place. -/
theorem currents_point (c : Dev nD) (t : Fin cfg0.N) (j : S256x256.Idx) :
    k0_pay2 (F := Ideal) (k0_pay7 (inpBlock m c t) (winBlock m c t)) (k0_pay8 (zBlock m c t) (wrecBlock m c t)) (k0_pay10 (curTile m c t)) j
      = currents (inpArr m c) (zArr m c) (curArr m c) (winArr m c) (wrecArr m c) (ix2 (row t (j 0)) (col t (j 1))) := by
  obtain ⟨p, q, rfl⟩ : ∃ (p q : Fin 256), j = ix2 p q := ⟨j 0, j 1, eq_ix2 j⟩
  rw [currents_at, curTile_at,
    rows_agree (inpBlock m c t) (winBlock m c t) (inpArr m c) (winArr m c) (row t p) (col t q) p q (inpBlock_at m c t p) (winBlock_at m c t q),
    rows_agree (zBlock m c t) (wrecBlock m c t) (zArr m c) (wrecArr m c) (row t p) (col t q) p q (zBlock_at m c t p) (wrecBlock_at m c t q)]
  rfl

/-- A local entry of the point's tile of the currents' array lies at row `256·b + p`, column `256·h + q`. -/
theorem tile10_place (t : Fin cfg0.N) (j : S256x256.Idx) :
    ((cfg0.win 10).blk t).view.emb j = ix2 (n0 := 4096) (n1 := 2048) (row t (j 0)) (col t (j 1)) := by
  obtain ⟨e0, e1⟩ := place10 t
  funext d
  apply Fin.ext
  match d with
  | ⟨0, _⟩ => show win0_10.index t (0 : Fin 2) * 256 + 1 * (j 0).val = win0_8.index t (0 : Fin 2) * 256 + (j 0).val; rw [e0]; omega
  | ⟨1, _⟩ => show win0_10.index t (1 : Fin 2) * 256 + 1 * (j 1).val = win0_8.index t (1 : Fin 2) * 256 + (j 1).val; rw [e1]; omega

/-- What a point writes back to the currents' array is its tile of the specification's array. -/
theorem currents_flushed (c : Dev nD) (t : Fin cfg0.N) :
    (dats m 0 c).flushed 10 t = ((cfg0.win 10).blk t).view.read (Elt Ideal) (currents (inpArr m c) (zArr m c) (curArr m c) (winArr m c) (wrecArr m c)) := by
  rw [flushed10_A, currents_left]
  funext j
  show k0_pay2 (F := Ideal) (k0_pay7 (inpBlock m c t) (winBlock m c t)) (k0_pay8 (zBlock m c t) (wrecBlock m c t)) (k0_pay10 (curTile m c t)) j
      = currents (inpArr m c) (zArr m c) (curArr m c) (winArr m c) (wrecArr m c) (((cfg0.win 10).blk t).view.emb j)
  rw [tile10_place]
  exact currents_point m c t j

/-- An index of the currents' array is in a point's tile iff each coordinate is in the tile's range. -/
theorem mem_tile10 (t : Fin cfg0.N) (i : S4096x2048.Idx) :
    i ∈ ((cfg0.win 10).blk t).view.set ↔ ∀ a : Fin 2, win0_10.index t a * S256x256.size a ≤ (i a).val ∧ (i a).val < win0_10.index t a * S256x256.size a + S256x256.size a := by
  show i ∈ ((View.whole main_v3_2).slice (win0_10.rect t)).set ↔ _
  rw [View.set_slice_whole, Rect.mem_set_unit]
  exact Iff.rfl

/-- The tiles cover the currents' array: index `(r, s)` is in the tile of the point `(r / 256, s / 256)`. -/
theorem covered10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := everyTile ⟨(i 0).val / 256, by omega⟩ ⟨(i 1).val / 256, by omega⟩
  have q0 : win0_8.index t (0 : Fin 2) = (i 0).val / 256 := congrFun ht 0
  have q1 : win0_8.index t (1 : Fin 2) = (i 1).val / 256 := congrFun ht 1
  obtain ⟨e0, e1⟩ := place10 t
  refine ⟨t, flush0_10 t, ?_⟩
  rw [mem_tile10]
  intro a
  match a with
  | ⟨0, _⟩ => show win0_10.index t (0 : Fin 2) * 256 ≤ (i 0).val ∧ (i 0).val < win0_10.index t (0 : Fin 2) * 256 + 256; rw [e0]; omega
  | ⟨1, _⟩ => show win0_10.index t (1 : Fin 2) * 256 ≤ (i 1).val ∧ (i 1).val < win0_10.index t (1 : Fin 2) * 256 + 256; rw [e1]; omega

/-- So the currents' array ends at the specification. -/
theorem currents_final (c : Dev nD) : (dats m 0 c).arrAt 10 cfg0.N = currents (inpArr m c) (zArr m c) (curArr m c) (winArr m c) (wrecArr m c) :=
  (dats m 0 c).arrAt_eq_of_cover 10 (currents (inpArr m c) (zArr m c) (curArr m c) (winArr m c) (wrecArr m c)) (fun t _ => currents_flushed m c t) covered10

/-! ### The counters -/

/-- The counters' payload of a point's blocks, at a local entry, is the specification's array at the entry's place. -/
theorem counters_point (c : Dev nD) (t : Fin cfg0.N) (j : S256x256.Idx) :
    k0_pay6 (F := Ideal) (rhoTile m c t) (k0_pay11 (vBlock m c t) (gBlock m c t) (ownColumns (grid0.coords t) (vBlock m c t)) (curTile m c t)) j
      = counters (vArr m c) (curArr m c) (rhoArr m c) (gArr m c) (ix2 (row t (j 0)) (col t (j 1))) := by
  obtain ⟨p, q, rfl⟩ : ∃ (p q : Fin 256), j = ix2 p q := ⟨j 0, j 1, eq_ix2 j⟩
  rw [counters_at, ownColumns_at, curTile_at, rhoTile_at,
    rows_agree (vBlock m c t) (gBlock m c t) (vArr m c) (gArr m c) (row t p) (col t q) p q (vBlock_at m c t p) (gBlock_at m c t q)]
  rfl

/-- A local entry of the point's tile of the counters' array lies at row `256·b + p`, column `256·h + q`. -/
theorem tile11_place (t : Fin cfg0.N) (j : S256x256.Idx) :
    ((cfg0.win 11).blk t).view.emb j = ix2 (n0 := 4096) (n1 := 2048) (row t (j 0)) (col t (j 1)) := by
  obtain ⟨e0, e1⟩ := place11 t
  funext d
  apply Fin.ext
  match d with
  | ⟨0, _⟩ => show win0_11.index t (0 : Fin 2) * 256 + 1 * (j 0).val = win0_8.index t (0 : Fin 2) * 256 + (j 0).val; rw [e0]; omega
  | ⟨1, _⟩ => show win0_11.index t (1 : Fin 2) * 256 + 1 * (j 1).val = win0_8.index t (1 : Fin 2) * 256 + (j 1).val; rw [e1]; omega

/-- What a point writes back to the counters' array is its tile of the specification's array. -/
theorem counters_flushed (c : Dev nD) (t : Fin cfg0.N) :
    (dats m 0 c).flushed 11 t = ((cfg0.win 11).blk t).view.read (Elt Ideal) (counters (vArr m c) (curArr m c) (rhoArr m c) (gArr m c)) := by
  rw [flushed11_A, counters_left]
  funext j
  show k0_pay6 (F := Ideal) (rhoTile m c t) (k0_pay11 (vBlock m c t) (gBlock m c t) (ownColumns (grid0.coords t) (vBlock m c t)) (curTile m c t)) j
      = counters (vArr m c) (curArr m c) (rhoArr m c) (gArr m c) (((cfg0.win 11).blk t).view.emb j)
  rw [tile11_place]
  exact counters_point m c t j

/-- An index of the counters' array is in a point's tile iff each coordinate is in the tile's range. -/
theorem mem_tile11 (t : Fin cfg0.N) (i : S4096x2048.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v3_3).slice (win0_11.rect t)).set ↔ _
  rw [View.set_slice_whole, Rect.mem_set_unit]
  exact Iff.rfl

/-- The tiles cover the counters' array: index `(r, s)` is in the tile of the point `(r / 256, s / 256)`. -/
theorem covered11 (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  obtain ⟨t, ht⟩ := everyTile ⟨(i 0).val / 256, by omega⟩ ⟨(i 1).val / 256, by omega⟩
  have q0 : win0_8.index t (0 : Fin 2) = (i 0).val / 256 := congrFun ht 0
  have q1 : win0_8.index t (1 : Fin 2) = (i 1).val / 256 := congrFun ht 1
  obtain ⟨e0, e1⟩ := place11 t
  refine ⟨t, flush0_11 t, ?_⟩
  rw [mem_tile11]
  intro a
  match a with
  | ⟨0, _⟩ => show win0_11.index t (0 : Fin 2) * 256 ≤ (i 0).val ∧ (i 0).val < win0_11.index t (0 : Fin 2) * 256 + 256; rw [e0]; omega
  | ⟨1, _⟩ => show win0_11.index t (1 : Fin 2) * 256 ≤ (i 1).val ∧ (i 1).val < win0_11.index t (1 : Fin 2) * 256 + 256; rw [e1]; omega

/-- So the counters' array ends at the specification. -/
theorem counters_final (c : Dev nD) : (dats m 0 c).arrAt 11 cfg0.N = counters (vArr m c) (curArr m c) (rhoArr m c) (gArr m c) :=
  (dats m 0 c).arrAt_eq_of_cover 11 (counters (vArr m c) (curArr m c) (rhoArr m c) (gArr m c)) (fun t _ => counters_flushed m c t) covered11

/-! ## The run, read -/

/-- Every weakly fair execution of the idealized kernel terminates with the four result arrays at the
    specification's functions of the argument arrays, and the arguments unchanged. -/
theorem run : θ_run defs (onTc (τ := τ) (main (F := Ideal))) ⟨m, fun _ => 0, ρ⟩ fun r => ∀ c : Dev nD,
      r.2.mem ((c : Thread nD τ).loc main_v3_0) = spikes (vArr m c) (curArr m c) (rhoArr m c) (gArr m c)
      ∧ r.2.mem ((c : Thread nD τ).loc main_v3_1) = potentials (vArr m c) (curArr m c) (rhoArr m c) (gArr m c)
      ∧ r.2.mem ((c : Thread nD τ).loc main_v3_2) = currents (inpArr m c) (zArr m c) (curArr m c) (winArr m c) (wrecArr m c)
      ∧ r.2.mem ((c : Thread nD τ).loc main_v3_3) = counters (vArr m c) (curArr m c) (rhoArr m c) (gArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (spikes_final m c), (h c).2.1.trans (potentials_final m c),
      (h c).2.2.1.trans (currents_final m c), (h c).2.2.2.1.trans (counters_final m c), (h c).2.2.2.2⟩)
    (run_blocks m ρ)

end Cert.Lif.Kernel

end
-- ==== Proof.RefValue.lean ====
/-
  The reference, read entry by entry, is the specification.

  The reference computes the whole step on full arrays: each of its operations is elementwise except the three
  matrix products, which contract the columns of a [4096, 2048] array with the rows of a TRANSPOSED weight
  matrix. Entry `(r, s)` of such a product is the sum over `k` of the left array at `(r, k)` times the transposed
  weights at `(k, s)`, that is the weights at `(s, k)`: row `r` against row `s`, the specification's coupling sum.
  The indicators are a comparison's bit read unsigned, which is how the specification spells them. Everything
  else is the same operation on the same entries, so each stage is the specification's function by unfolding.
-/
import proofs.«138825_j42631845380415_1_alg».proof.Proof.Gen.ReferenceIdeal.Read
import proofs.«138825_j42631845380415_1_alg».proof.Proof.Spec

noncomputable section

namespace Cert.Lif.Reference

open Cert.ReferenceIdeal Cert.ReferenceIdeal.Read Idealize.ShloMosaic Idealize.ShloMosaic.ValueIdx Cert.Lib.DotRows

/-- The product of the potentials with the transposed coupling weights, at an entry. -/
theorem coupling_eq (x2 : Sbh.Idx → EReal) (x7 : Shk.Idx → EReal) (i : Sbh.Idx) :
    val_main_v7 (F := Ideal) x2 x7 i = coupling x2 x7 i := by
  rw [val_main_v7_apply]
  refine Finset.sum_congr rfl fun k _ => ?_
  rw [val_main_v6_apply]
  have el : lidx_main_v7 i k = ix2 (n0 := 4096) (n1 := 2048) ⟨(i 0).val, (i 0).isLt⟩ k :=
    funext fun a => by match a with | ⟨0, _⟩ => rfl | ⟨1, _⟩ => rfl
  have er : idx_main_v6 (ridx_main_v7 i k) = ix2 (n0 := 2048) (n1 := 2048) ⟨(i 1).val, (i 1).isLt⟩ k :=
    funext fun a => by match a with | ⟨0, _⟩ => rfl | ⟨1, _⟩ => rfl
  rw [el, er]

/-- The product of the inputs with the transposed input weights, at an entry. -/
theorem inputDrive_eq (x0 : Sbh.Idx → EReal) (x5 : Shk.Idx → EReal) (i : Sbh.Idx) :
    val_main_v24 (F := Ideal) x0 x5 i = coupling x0 x5 i := by
  rw [val_main_v24_apply]
  refine Finset.sum_congr rfl fun k _ => ?_
  rw [val_main_v23_apply]
  have el : lidx_main_v24 i k = ix2 (n0 := 4096) (n1 := 2048) ⟨(i 0).val, (i 0).isLt⟩ k :=
    funext fun a => by match a with | ⟨0, _⟩ => rfl | ⟨1, _⟩ => rfl
  have er : idx_main_v23 (ridx_main_v24 i k) = ix2 (n0 := 2048) (n1 := 2048) ⟨(i 1).val, (i 1).isLt⟩ k :=
    funext fun a => by match a with | ⟨0, _⟩ => rfl | ⟨1, _⟩ => rfl
  rw [el, er]

/-- The product of the previous spikes with the transposed recurrent weights, at an entry. -/
theorem recurrentDrive_eq (x1 : Sbh.Idx → EReal) (x6 : Shk.Idx → EReal) (i : Sbh.Idx) :
    val_main_v27 (F := Ideal) x1 x6 i = coupling x1 x6 i := by
  rw [val_main_v27_apply]
  refine Finset.sum_congr rfl fun k _ => ?_
  rw [val_main_v26_apply]
  have el : lidx_main_v27 i k = ix2 (n0 := 4096) (n1 := 2048) ⟨(i 0).val, (i 0).isLt⟩ k :=
    funext fun a => by match a with | ⟨0, _⟩ => rfl | ⟨1, _⟩ => rfl
  have er : idx_main_v26 (ridx_main_v27 i k) = ix2 (n0 := 2048) (n1 := 2048) ⟨(i 1).val, (i 1).isLt⟩ k :=
    funext fun a => by match a with | ⟨0, _⟩ => rfl | ⟨1, _⟩ => rfl
  rw [el, er]

/-- The potential after leak, drive and coupling. -/
theorem potential_eq (x2 x3 : Sbh.Idx → EReal) (x7 : Shk.Idx → EReal) (i : Sbh.Idx) :
    val_main_v8 (F := Ideal) x2 x3 x7 i = potential (x2 i) (x3 i) (coupling x2 x7 i) := by
  rw [val_main_v8_apply, val_main_v5_apply, val_main_v4_apply, val_main_v3_apply, val_main_cst_0_apply,
    val_main_v2_apply, val_main_v1_apply, val_main_v0_apply, val_main_cst_apply, coupling_eq]
  rfl

/-- Whether the neuron crosses the threshold. -/
theorem fired_eq (x2 x3 : Sbh.Idx → EReal) (x7 : Shk.Idx → EReal) (i : Sbh.Idx) :
    val_main_v16 (F := Ideal) x2 x3 x7 i = fired (x2 i) (x3 i) (coupling x2 x7 i) := by
  rw [val_main_v16_apply, val_main_v15_apply, val_main_v14_apply, val_main_cst_3_apply, val_main_v13_apply,
    val_main_v12_apply, val_main_cst_2_apply, potential_eq]
  rfl

/-- The potential with a spike's reset applied. -/
theorem afterReset_eq (x2 x3 : Sbh.Idx → EReal) (x7 : Shk.Idx → EReal) (i : Sbh.Idx) :
    val_main_v22 (F := Ideal) x2 x3 x7 i = afterReset (x2 i) (x3 i) (coupling x2 x7 i) := by
  rw [val_main_v22_apply, val_main_v21_apply, val_main_v20_apply, val_main_cst_5_apply, val_main_v19_apply,
    val_main_v18_apply, val_main_v17_apply, val_main_cst_4_apply, fired_eq, potential_eq]
  rfl

/-- Whether the neuron is refractory. -/
theorem held_eq (x4 : Sbh.Idx → EReal) (i : Sbh.Idx) : val_main_v31 (F := Ideal) x4 i = held (x4 i) := by
  rw [val_main_v31_apply, val_main_v30_apply, val_main_v29_apply, val_main_cst_6_apply]
  rfl

/-- The first result: the spikes. -/
theorem spikes_eq (x2 x3 x4 : Sbh.Idx → EReal) (x7 : Shk.Idx → EReal) :
    val_main_v39 (F := Ideal) x2 x3 x4 x7 = spikes x2 x3 x4 x7 := by
  funext i
  rw [val_main_v39_apply, val_main_v38_apply, val_main_v37_apply, val_main_cst_8_apply, held_eq, fired_eq]
  rfl

/-- The second result: the potentials. -/
theorem potentials_eq (x2 x3 x4 : Sbh.Idx → EReal) (x7 : Shk.Idx → EReal) :
    val_main_v36 (F := Ideal) x2 x3 x4 x7 = potentials x2 x3 x4 x7 := by
  funext i
  rw [val_main_v36_apply, val_main_v35_apply, val_main_v34_apply, val_main_v33_apply, val_main_v32_apply,
    val_main_cst_7_apply, held_eq, afterReset_eq]
  rfl

/-- The third result: the currents. -/
theorem currents_eq (x0 x1 x3 : Sbh.Idx → EReal) (x5 x6 : Shk.Idx → EReal) :
    val_main_v28 (F := Ideal) x0 x1 x3 x5 x6 = currents x0 x1 x3 x5 x6 := by
  funext i
  rw [val_main_v28_apply, val_main_v25_apply, val_main_v11_apply, val_main_v10_apply, val_main_v9_apply,
    val_main_cst_1_apply, inputDrive_eq, recurrentDrive_eq]
  rfl

/-- The fourth result: the refractory counters. -/
theorem counters_eq (x2 x3 x4 : Sbh.Idx → EReal) (x7 : Shk.Idx → EReal) :
    val_main_v48 (F := Ideal) x2 x3 x4 x7 = counters x2 x3 x4 x7 := by
  funext i
  have hs : val_main_v39 (F := Ideal) x2 x3 x4 x7 i = spikeOut (x2 i) (x3 i) (x4 i) (coupling x2 x7 i) :=
    congrFun (spikes_eq x2 x3 x4 x7) i
  rw [val_main_v48_apply, val_main_v47_apply, val_main_v46_apply, val_main_cst_11_apply, val_main_v45_apply,
    val_main_v44_apply, val_main_v43_apply, val_main_cst_10_apply, val_main_v42_apply, val_main_v41_apply,
    val_main_v40_apply, val_main_cst_9_apply, hs, held_eq]
  rfl

end Cert.Lif.Reference

end
-- ==== Proof.lean ====
/-
  The certificate of one time step of a layer of leaky integrate-and-fire neurons with compartment coupling and
  a refractory counter: a tiled kernel against the plain array program.

  Both programs take the inputs, the previous spikes, the potentials, the synaptic currents and the refractory
  counters (each 4096 batch rows by 2048 neurons) and three 2048-by-2048 weight matrices, and return the new
  spikes, potentials, currents and counters. The kernel walks a 16-by-8 grid of 256-by-256 tiles; at each tile it
  forms three matrix products of a 256-row block against the transposes of the weight rows of the tile's
  neurons, then applies the neuron step entry by entry. The reference forms the same three products on whole
  arrays and applies the same step.

  On the extended reals the two compute the same function, operation for operation:
    * the kernel's casts of the operands to a narrower float format are the identity;
    * a product of a block with the transpose of a weight block, summed into a zero accumulator, is at entry
      `(p, q)` the sum of row `p` against weight row `q`, and the reference's product with the transposed matrix
      is the same sum of array row `256·b + p` against weight row `256·h + q`, term by term in the same order of
      factors;
    * the kernel's indicator (a comparison's bit widened to a word and converted signed) is the reference's
      (the bit converted unsigned): the word is 0 or 1;
    * every other step is the same operation with the same constants.
  No sum is reordered and no product is distributed, so nothing is assumed of the entries: the statement holds
  at the infinities as well, and the precondition is not opened.

  The three frames: the kernel's two are the generated frame certificates; the reference's is its generated run
  with the results dropped. The kernel's idealization rewrote nothing, so it is its own sanctioned form.
-/
import proofs.«138825_j42631845380415_1_alg».proof.Defs
import proofs.«138825_j42631845380415_1_alg».proof.Proof.Gen.Kernel
import proofs.«138825_j42631845380415_1_alg».proof.Proof.Gen.Kernel.Skeleton
import proofs.«138825_j42631845380415_1_alg».proof.Proof.Gen.Kernel.Launch
import proofs.«138825_j42631845380415_1_alg».proof.Proof.Gen.Kernel.Points
import proofs.«138825_j42631845380415_1_alg».proof.Proof.Gen.Kernel.Frame
import proofs.«138825_j42631845380415_1_alg».proof.Proof.Gen.KernelIdeal
import proofs.«138825_j42631845380415_1_alg».proof.Proof.Gen.KernelIdeal.Skeleton
import proofs.«138825_j42631845380415_1_alg».proof.Proof.Gen.KernelIdeal.Launch
import proofs.«138825_j42631845380415_1_alg».proof.Proof.Gen.KernelIdeal.Points
import proofs.«138825_j42631845380415_1_alg».proof.Proof.Gen.KernelIdeal.Frame
import proofs.«138825_j42631845380415_1_alg».proof.Proof.Gen.ReferenceIdeal
import proofs.«138825_j42631845380415_1_alg».proof.Proof.Gen.Pre_finite_inputs
import proofs.«138825_j42631845380415_1_alg».proof.Proof.Gen.KernelIdeal.Value
import proofs.«138825_j42631845380415_1_alg».proof.Proof.Gen.ReferenceIdeal.Run
import proofs.«138825_j42631845380415_1_alg».proof.Proof.Gen.ReferenceIdeal.Read
import proofs.«138825_j42631845380415_1_alg».proof.Proof.KernelArray
import proofs.«138825_j42631845380415_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of array operations: its run, with the four results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.Value.run (F := Ideal) m ρ)

/-- Both programs end with the four result arrays at the specification's functions of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.Lif.Kernel.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  obtain ⟨r0, r1, r2, r3, kept⟩ := h c
  refine ⟨r0.trans ?_, r1.trans ?_, r2.trans ?_, r3.trans ?_, kept⟩
  · rw [a2, a3, a4, a7]
    exact (Cert.ReferenceIdeal.Read.val_main_v39_eq (F := Ideal) _ _ _ _).trans (Cert.Lif.Reference.spikes_eq _ _ _ _)
  · rw [a2, a3, a4, a7]
    exact (Cert.ReferenceIdeal.Read.val_main_v36_eq (F := Ideal) _ _ _ _).trans (Cert.Lif.Reference.potentials_eq _ _ _ _)
  · rw [a0, a1, a3, a5, a6]
    exact (Cert.ReferenceIdeal.Read.val_main_v28_eq (F := Ideal) _ _ _ _ _).trans (Cert.Lif.Reference.currents_eq _ _ _ _ _)
  · rw [a2, a3, a4, a7]
    exact (Cert.ReferenceIdeal.Read.val_main_v48_eq (F := Ideal) _ _ _ _).trans (Cert.Lif.Reference.counters_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
